-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 29
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S50000x128, .f32⟩
  | .hbm, ⟨22, _⟩ => ⟨S1600000x1, .i32⟩
  | .hbm, ⟨23, _⟩ => ⟨S50000x128, .f32⟩
  | .hbm, ⟨24, _⟩ => ⟨S128x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S50000x128, .f32⟩
  | .hbm, ⟨22, _⟩ => ⟨S1600000x1, .i32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000, .f32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.RowNorm.lean ====
/-
  One row of a linear layer followed by ReLU and a normalisation over the row, on the extended reals.

  A row `xr` of 128 aggregated features is multiplied into the transposed weights `wt` (entry `(k, j)` is the weight
  from input feature `k` to output feature `j`), the bias `b` is added and negative entries are clipped at the zero word:
  that is `act`. The 128 activations of the row are then centred on their mean (their sum divided by the word of
  128.0), the variance is the mean of the squared deviations plus the word of 1e-10, and each deviation is scaled by
  `s`, multiplied by the reciprocal square root of the variance and shifted by `o`: that is `norm`.

  Every operation here is the exact one on `EReal`, in the order and grouping in which both programs apply it, and the
  three float words are kept as words: nothing below needs their values, nor any law beyond reading a sum term by term.
  `layer` applies the row computation to each of the 50000 rows of the aggregated features.
-/
import Idealize.ShloMosaic.PureOps.Ideal
import Idealize.ShloMosaic.Lib.ValueIdx

noncomputable section

namespace RowNorm

open Idealize.ShloMosaic Idealize.ShloMosaic.ValueIdx

/-- The word of `0.0`, at which the activation is clipped. -/
abbrev zeroW : EReal := Ideal.ofBits .f32 0x00000000#32
/-- The word of `128.0`, the row's length, by which both means divide. -/
abbrev widthW : EReal := Ideal.ofBits .f32 0x43000000#32
/-- The word of `1e-10`, added to the variance. -/
abbrev epsW : EReal := Ideal.ofBits .f32 0x2EDBE6FF#32

/-- Output feature `j` of the clipped linear layer on one row. -/
def act (xr : Fin 128 → EReal) (wt : Fin 128 → Fin 128 → EReal) (b : Fin 128 → EReal) (j : Fin 128) : EReal :=
  max ((∑ k : Fin 128, xr k * wt k j) + b j) zeroW

/-- The mean of a row of activations. -/
def mean (a : Fin 128 → EReal) : EReal := Ideal.div (∑ j : Fin 128, a j) widthW

/-- An activation's deviation from its row's mean. -/
def dev (a : Fin 128 → EReal) (j : Fin 128) : EReal := a j - mean a

/-- The row's biased variance, with the stabilising word added. -/
def var (a : Fin 128 → EReal) : EReal := Ideal.div (∑ j : Fin 128, dev a j * dev a j) widthW + epsW

/-- The normalised, scaled and shifted activation `j` of a row. -/
def norm (a s o : Fin 128 → EReal) (j : Fin 128) : EReal := dev a j * s j * Ideal.rsqrt (var a) + o j

/-- The whole row computation: the clipped linear layer, then the normalisation. -/
def row (xr : Fin 128 → EReal) (wt : Fin 128 → Fin 128 → EReal) (b s o : Fin 128 → EReal) (j : Fin 128) : EReal :=
  norm (act xr wt b) s o j

/-- The layer on all 50000 rows: entry `(r, j)` of the result is the row computation on row `r` of the aggregated
    features `A`, at feature `j`. -/
def layer (A : (⟨2, ![50000, 128]⟩ : Shape).Idx → EReal) (wt : Fin 128 → Fin 128 → EReal) (b s o : Fin 128 → EReal) :
    (⟨2, ![50000, 128]⟩ : Shape).Idx → EReal :=
  fun i => row (fun k => A (ix2 (i 0) k)) wt b s o (i 1)

theorem layer_apply (A : (⟨2, ![50000, 128]⟩ : Shape).Idx → EReal) (wt : Fin 128 → Fin 128 → EReal) (b s o : Fin 128 → EReal)
    (r : Fin 50000) (j : Fin 128) :
    layer A wt b s o (ix2 r j) = row (fun k => A (ix2 r k)) wt b s o j := rfl

end RowNorm

end
-- ==== Proof.BlockPayload.lean ====
/-
  What the kernel body stores, read at one entry of its block.

  The body works on a block of 2000 rows of aggregated features `x0`, the transposed weights `x1`, and the bias, scale
  and offset as `[1, 128]` rows `x2`, `x3`, `x4`. Its stored value is split here in two: the activation block (the matrix
  product into a zero accumulator, the bias row broadcast over the rows, the clip at zero), and the normalisation of a
  block of activations (two sums along each row kept as columns and broadcast back). At entry `(p, q)` the first reads
  row `p` of `x0` and column `q` of `x1`; the second reads row `p` of the activations. Together they are `RowNorm.row`
  of row `p`, at feature `q`. The conversions to bfloat16 and the same-shape casts are the identity on extended reals.
-/
import proofs.«169161_j43997644981190_1_alg».proof.Proof.Gen.KernelIdeal.Skeleton
import proofs.«169161_j43997644981190_1_alg».proof.Proof.LibRowOps
import proofs.«169161_j43997644981190_1_alg».proof.Proof.RowNorm
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The matrix product at an entry -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the product into a zero accumulator is the sum over the 128 shared features of row `p` of the left
    factor times column `q` of the right. -/
theorem product_apply (X : FVec Ideal S2000x128 .bf16) (Wt : FVec Ideal S128x128 .bf16) (p : Fin 2000) (q : Fin 128) :
    matmul dot_S2000x128_S128x128_S2000x128_1_0_0_1_n_n none X Wt (constant (F := Ideal) S2000x128 .f32 0x00000000#32) (ix2 p q)
      = ∑ k : Fin 128, X (ix2 p k) * Wt (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The activation block -/

/-- The block of activations the body computes from its first three loads. -/
def actBlock (x0 : Vec Ideal S2000x128 .f32) (x1 : Vec Ideal S128x128 .f32) (x2 : Vec Ideal S1x128 .f32) : FVec Ideal S2000x128 .f32 :=
  maximumf
    (addf
      (matmul dot_S2000x128_S128x128_S2000x128_1_0_0_1_n_n none
        (truncf .bf16 (shapeCast S2000x128 x0 shapeCasts_S2000x128_S2000x128) bitsLt_bf16_f32)
        (truncf .bf16 (shapeCast S128x128 x1 shapeCasts_S128x128_S128x128) bitsLt_bf16_f32)
        (constant S2000x128 .f32 0x00000000#32))
      (broadcastTo S2000x128 (shapeCast S1x128 x2 shapeCasts_S1x128_S1x128) broadcasts_S1x128_S2000x128))
    (broadcast S2000x128 (Scalar.ofBits .f32 0x00000000#32))

/-- Entry `(p, q)` of the activation block is the clipped linear layer on row `p`, at feature `q`. -/
theorem actBlock_apply (x0 : Vec Ideal S2000x128 .f32) (x1 : Vec Ideal S128x128 .f32) (x2 : Vec Ideal S1x128 .f32)
    (p : Fin 2000) (q : Fin 128) :
    actBlock x0 x1 x2 (ix2 p q)
      = RowNorm.act (fun k => x0 (ix2 p k)) (fun k j => x1 (ix2 k j)) (fun j => x2 (ix2 (0 : Fin 1) j)) q := by
  unfold actBlock
  rw [shapeCast_self, shapeCast_self, shapeCast_self]
  show max (matmul (F := Ideal) dot_S2000x128_S128x128_S2000x128_1_0_0_1_n_n none _ _ _ (ix2 p q) + broadcastTo S2000x128 x2 broadcasts_S1x128_S2000x128 (ix2 p q)) _ = _
  rw [product_apply, broadcastTo_1b_ab_apply]
  rfl

/-! ## The normalisation of a block of activations -/

/-- The sums along the rows of a block, divided by the row length, kept as a column. -/
def rowMeans (a : FVec Ideal S2000x128 .f32) : FVec Ideal S2000x1 .f32 :=
  divf
    (shapeCast S2000x1 (multiReduction .add [1] S2000 a 0x00000000#32 reduces_S2000x128_S2000 (.inl rfl) rfl) shapeCasts_S2000_S2000x1)
    (broadcast S2000x1 (Scalar.ofBits .f32 0x43000000#32))

/-- The sum along row `p` of a block, from the zero accumulator. -/
theorem rowSum_apply (a : FVec Ideal S2000x128 .f32) (p : Fin 2000) :
    multiReduction .add [1] S2000 a 0x00000000#32 reduces_S2000x128_S2000 (.inl rfl) rfl (ix1 p) = ∑ k : Fin 128, a (ix2 p k) :=
  RowOps.multiReduction_add_row a 0x00000000#32 reduces_S2000x128_S2000 (.inl rfl) rfl p

/-- Entry `p` of that column is the sum of row `p` divided by the word of 128.0. -/
theorem rowMeans_apply (a : FVec Ideal S2000x128 .f32) (p : Fin 2000) (u : Fin 1) :
    rowMeans a (ix2 p u) = Ideal.div (∑ k : Fin 128, a (ix2 p k)) RowNorm.widthW := by
  unfold rowMeans
  show Ideal.div (shapeCast S2000x1 _ shapeCasts_S2000_S2000x1 (ix2 p u)) RowNorm.widthW = _
  exact congrArg (Ideal.div · RowNorm.widthW)
    ((RowOps.shapeCast_a_a1_apply _ shapeCasts_S2000_S2000x1 p u).trans (rowSum_apply a p))

/-- A block of activations with each row's mean taken off. -/
def devBlock (a : FVec Ideal S2000x128 .f32) : FVec Ideal S2000x128 .f32 :=
  subf a (broadcastTo S2000x128 (rowMeans a) broadcasts_S2000x1_S2000x128)

theorem devBlock_apply (a : FVec Ideal S2000x128 .f32) (p : Fin 2000) (q : Fin 128) :
    devBlock a (ix2 p q) = RowNorm.dev (fun j => a (ix2 p j)) q := by
  unfold devBlock
  show a (ix2 p q) - broadcastTo S2000x128 (rowMeans a) broadcasts_S2000x1_S2000x128 (ix2 p q) = _
  rw [RowOps.broadcastTo_a1_ab_apply, rowMeans_apply]
  rfl

/-- The reciprocal square root of each row's variance, as a column. -/
def invStd (a : FVec Ideal S2000x128 .f32) : FVec Ideal S2000x1 .f32 :=
  rsqrt (addf (rowMeans (mulf (devBlock a) (devBlock a))) (broadcast S2000x1 (Scalar.ofBits .f32 0x2EDBE6FF#32)))

theorem invStd_apply (a : FVec Ideal S2000x128 .f32) (p : Fin 2000) (u : Fin 1) :
    invStd a (ix2 p u) = Ideal.rsqrt (RowNorm.var (fun j => a (ix2 p j))) := by
  unfold invStd
  show Ideal.rsqrt (rowMeans (mulf (devBlock a) (devBlock a)) (ix2 p u) + _) = _
  rw [rowMeans_apply]
  refine congrArg Ideal.rsqrt (congrArg (· + _) (congrArg (Ideal.div · _) (Finset.sum_congr rfl fun k _ => ?_)))
  show devBlock a (ix2 p k) * devBlock a (ix2 p k) = _
  rw [devBlock_apply]

/-- The body's value from a block of activations and the scale and offset rows. -/
def normBlock (a : FVec Ideal S2000x128 .f32) (x3 x4 : Vec Ideal S1x128 .f32) : FVec Ideal S2000x128 .f32 :=
  addf
    (mulf
      (mulf (devBlock a) (broadcastTo S2000x128 (shapeCast S1x128 x3 shapeCasts_S1x128_S1x128) broadcasts_S1x128_S2000x128))
      (broadcastTo S2000x128 (invStd a) broadcasts_S2000x1_S2000x128))
    (broadcastTo S2000x128 (shapeCast S1x128 x4 shapeCasts_S1x128_S1x128) broadcasts_S1x128_S2000x128)

/-- Entry `(p, q)` of the normalised block is the normalisation of row `p` of the activations, at feature `q`. -/
theorem normBlock_apply (a : FVec Ideal S2000x128 .f32) (x3 x4 : Vec Ideal S1x128 .f32) (p : Fin 2000) (q : Fin 128) :
    normBlock a x3 x4 (ix2 p q)
      = RowNorm.norm (fun j => a (ix2 p j)) (fun j => x3 (ix2 (0 : Fin 1) j)) (fun j => x4 (ix2 (0 : Fin 1) j)) q := by
  unfold normBlock
  rw [shapeCast_self, shapeCast_self]
  show devBlock a (ix2 p q) * broadcastTo S2000x128 x3 broadcasts_S1x128_S2000x128 (ix2 p q)
        * broadcastTo S2000x128 (invStd a) broadcasts_S2000x1_S2000x128 (ix2 p q)
      + broadcastTo S2000x128 x4 broadcasts_S1x128_S2000x128 (ix2 p q) = _
  rw [devBlock_apply, broadcastTo_1b_ab_apply, broadcastTo_1b_ab_apply, RowOps.broadcastTo_a1_ab_apply, invStd_apply]
  rfl

/-! ## The stored value -/

/-- The body's stored value is the normalisation of its activation block. -/
theorem pay_eq (x0 : Vec Ideal S2000x128 .f32) (x1 : Vec Ideal S128x128 .f32) (x2 x3 x4 : Vec Ideal S1x128 .f32) :
    k0_pay1 (F := Ideal) x0 x1 x2 x3 x4 = normBlock (actBlock x0 x1 x2) x3 x4 := rfl

/-- Entry `(p, q)` of the stored block: the row computation on row `p` of the feature block, at feature `q`. -/
theorem pay_apply (x0 : Vec Ideal S2000x128 .f32) (x1 : Vec Ideal S128x128 .f32) (x2 x3 x4 : Vec Ideal S1x128 .f32)
    (p : Fin 2000) (q : Fin 128) :
    k0_pay1 (F := Ideal) x0 x1 x2 x3 x4 (ix2 p q)
      = RowNorm.row (fun k => x0 (ix2 p k)) (fun k j => x1 (ix2 k j)) (fun j => x2 (ix2 (0 : Fin 1) j))
          (fun j => x3 (ix2 (0 : Fin 1) j)) (fun j => x4 (ix2 (0 : Fin 1) j)) q := by
  rw [pay_eq, normBlock_apply]
  unfold RowNorm.row
  exact congrArg (fun a => RowNorm.norm a _ _ q) (funext fun j => actBlock_apply x0 x1 x2 p j)

end Cert.KernelIdeal.Payload

end
-- ==== Proof.BlockIndex.lean ====
/-
  Which rows each grid point's blocks hold.

  The grid has 25 points. At point `t` the feature window and the output window hold block `t` along the rows (rows
  `2000·t … 2000·t + 1999`) and the only block along the features; the weights and the three parameter rows are one block
  each, the same at every point. So an index `(r, j)` of the output array lies in the block of point `r / 2000`, and the
  25 blocks cover the array.
-/
import proofs.«169161_j43997644981190_1_alg».proof.Proof.Gen.KernelIdeal.Frame

noncomputable section

namespace Cert.KernelIdeal.Array

open Cert.KernelIdeal Cert.KernelIdeal.Gen Idealize.ShloMosaic Idealize.ShloMosaic.TcCoe Idealize.SL.Sem

/-- The printed index maps over the 25 points: the feature and output blocks are block `t` along the rows, every other
    block index is zero. -/
theorem idx_facts : ∀ t : Fin cfg0.N, win0_0.index t (0 : Fin 2) = t.val
    ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v17).slice (win0_5.rect t)).set ↔ _
  rw [View.set_slice_whole, Rect.mem_set_unit]
  exact Iff.rfl

theorem points_eq : cfg0.N = 25 := by decide

/-- Every index of the output array lies in the block of the point that owns its row. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN := points_eq
  have ht : (i 0).val / 2000 < cfg0.N := by omega
  obtain ⟨-, -, q0, q1, -⟩ := idx_facts ⟨(i 0).val / 2000, ht⟩
  have q0' : win0_5.index ⟨(i 0).val / 2000, ht⟩ (0 : Fin 2) = (i 0).val / 2000 := q0
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    omega

end Cert.KernelIdeal.Array

end
-- ==== Proof.KernelArray.lean ====
/-
  From the blocks the grid points write to the whole output array.

  The grid has 25 points; point `t` works on rows `2000·t … 2000·t + 1999` of the aggregated features and of the output,
  and on the whole of the transposed weights and of the bias, scale and offset rows. So what point `t` writes back is
  block `t` of `RowNorm.layer` of the operand arrays as the region finds them: row `p` of the feature block is row
  `2000·t + p` of the feature array, and the other operands are read in place. The 25 blocks tile the 50000 rows (the
  point covering row `r` is `r / 2000`), so after the run the output array is `RowNorm.layer` of the operands.
-/
import proofs.«169161_j43997644981190_1_alg».proof.Proof.Gen.KernelIdeal.Value
import proofs.«169161_j43997644981190_1_alg».proof.Proof.BlockPayload
import proofs.«169161_j43997644981190_1_alg».proof.Proof.BlockIndex

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_eq : (![0, 0] : Fin 2 → Nat) = fun _ => 0 := funext fun a => by fin_cases a <;> rfl

/-- The layer of the operand arrays as the region finds them: the aggregated features, the transposed weights, and
    the bias, scale and offset rows. -/
def layerOf (A : S50000x128.Idx → EReal) (WT : S128x128.Idx → EReal) (B S O : S1x128.Idx → EReal) : S50000x128.Idx → EReal :=
  RowNorm.layer A (fun k j => WT (ix2 k j)) (fun j => B (ix2 (0 : Fin 1) j)) (fun j => S (ix2 (0 : Fin 1) j))
    (fun j => O (ix2 (0 : Fin 1) j))

/-- The stored block at an entry `y`, for blocks that are the matching rows and the whole small operands of arrays:
    the layer of those arrays at the array index `i` on the same feature and the matching row. -/
theorem pay_at (x0 : Vec Ideal S2000x128 .f32) (x1 : Vec Ideal S128x128 .f32) (x2 x3 x4 : Vec Ideal S1x128 .f32)
    (A : S50000x128.Idx → EReal) (WT : S128x128.Idx → EReal) (B S O : S1x128.Idx → EReal)
    (y : S2000x128.Idx) (i : S50000x128.Idx)
    (h0 : ∀ k : Fin 128, x0 (ix2 (y 0) k) = A (ix2 (i 0) k))
    (h1 : ∀ k j : Fin 128, x1 (ix2 k j) = WT (ix2 k j))
    (h2 : ∀ j : Fin 128, x2 (ix2 (0 : Fin 1) j) = B (ix2 (0 : Fin 1) j))
    (h3 : ∀ j : Fin 128, x3 (ix2 (0 : Fin 1) j) = S (ix2 (0 : Fin 1) j))
    (h4 : ∀ j : Fin 128, x4 (ix2 (0 : Fin 1) j) = O (ix2 (0 : Fin 1) j))
    (hq : (y 1).val = (i 1).val) :
    k0_pay1 (F := Ideal) x0 x1 x2 x3 x4 y = layerOf A WT B S O i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : q = s := Fin.ext hq
  rw [Payload.pay_apply]
  unfold layerOf
  rw [RowNorm.layer_apply]
  have e0 : (fun k : Fin 128 => x0 (ix2 p k)) = fun k => A (ix2 r k) := funext h0
  have e1 : (fun k j : Fin 128 => x1 (ix2 k j)) = fun k j => WT (ix2 k j) := funext fun k => funext (h1 k)
  have e2 : (fun j : Fin 128 => x2 (ix2 (0 : Fin 1) j)) = fun j => B (ix2 (0 : Fin 1) j) := funext h2
  have e3 : (fun j : Fin 128 => x3 (ix2 (0 : Fin 1) j)) = fun j => S (ix2 (0 : Fin 1) j) := funext h3
  have e4 : (fun j : Fin 128 => x4 (ix2 (0 : Fin 1) j)) = fun j => O (ix2 (0 : Fin 1) j) := funext h4
  rw [e0, e1, e2, e3, e4]

/-- Cutting a block to the part inside the array changes no entry here: the entry at `y` is the block's entry at `y`
    with its coordinates re-bounded. This is a fact about indices alone, whatever the block holds. -/
theorem cut_apply (X : S2000x128.Idx → EReal) (t : Fin cfg0.N) (y : ((cfg0.win 5).xblock (grid0.coords t)).Idx) :
    (cfg0.win 5).cut (grid0.coords t) X y = X ((cfg0.win 5).xinj (grid0.coords t) y) := rfl

/-- Reading an array through point `t`'s output block: the entry at `y` is the array's entry at the block's index for
    `y`. Again a fact about indices alone, whatever the array holds. -/
theorem read_blk_apply (G : S50000x128.Idx → EReal) (t : Fin cfg0.N) (y : ((cfg0.win 5).xblock (grid0.coords t)).Idx) :
    ((cfg0.win 5).blk t).view.read (Elt Ideal) G y = G (((cfg0.win 5).blk t).view.emb y) := rfl

/-- Row `p` of point `t`'s block of a `[50000, 128]` array is row `2000·t + p` of the array — the row the output block's
    index for the same `p` names. It holds of any array: only the two windows' index maps enter. -/
theorem feat_row (A : S50000x128.Idx → EReal) (t : Fin cfg0.N) (y : ((cfg0.win 5).xblock (grid0.coords t)).Idx) (k : Fin 128) :
    ((cfg0.win 0).blk t).view.read (Elt Ideal) A (ix2 (((cfg0.win 5).xinj (grid0.coords t) y) 0) k)
      = A (ix2 ((((cfg0.win 5).blk t).view.emb y) 0) k) := by
  obtain ⟨e0, e1, e2, e3, -⟩ := idx_facts t
  show A (((cfg0.win 0).blk t).view.emb (ix2 (((cfg0.win 5).xinj (grid0.coords t) y) 0) k)) = A (ix2 ((((cfg0.win 5).blk t).view.emb y) 0) k)
  refine congrArg A (funext fun a => Fin.ext ?_)
  match a with
  | ⟨0, _⟩ => show win0_0.index t (0 : Fin 2) * 2000 + 1 * (y 0).val = win0_5.index t (0 : Fin 2) * 2000 + 1 * (y 0).val; omega
  | ⟨1, _⟩ => show win0_0.index t (1 : Fin 2) * 128 + 1 * k.val = k.val; omega

/-- What point `t` writes back is block `t` of the layer of the operand arrays. -/
theorem flushed_eq (c : Dev nD) (t : Fin cfg0.N) :
    (dats m 0 c).flushed 5 t = ((cfg0.win 5).blk t).view.read (Elt Ideal)
      (layerOf (V m c main_v12) (V m c main_v13) (V m c main_v14) (V m c main_v15) (V m c main_v16)) := by
  show (cfg0.win 5).cut (grid0.coords t) ((dats m 0 c).after 5 t) = _
  rw [after0_5]
  unfold out0_5
  rw [View.canon_unit_zero origin_eq]
  simp only [View.ld_unit_zero (S := S2000x128) origin_eq, View.ld_unit_zero (S := S128x128) origin_eq,
    View.ld_unit_zero (S := S1x128) origin_eq]
  obtain ⟨e0, e1, e2, e3, e4, e5, e6, e7, e8, e9, e10, e11⟩ := idx_facts t
  funext y
  refine (cut_apply _ t y).trans (Eq.trans ?_ (read_blk_apply _ t y).symm)
  refine pay_at (iblk m c 0 t) (iblk m c 1 t) (iblk m c 2 t) (iblk m c 3 t) (iblk m c 4 t)
    (V m c main_v12) (V m c main_v13) (V m c main_v14) (V m c main_v15) (V m c main_v16) ((cfg0.win 5).xinj (grid0.coords t) y)
    (((cfg0.win 5).blk t).view.emb y) ?_ ?_ ?_ ?_ ?_ ?_
  · intro k
    exact feat_row (V m c main_v12) t y k
  · intro k j
    show V m c main_v13 (((cfg0.win 1).blk t).view.emb (ix2 k j)) = V m c main_v13 (ix2 k j)
    refine congrArg (V m c main_v13) (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  · intro j
    show V m c main_v14 (((cfg0.win 2).blk t).view.emb (ix2 (0 : Fin 1) j)) = V m c main_v14 (ix2 (0 : Fin 1) j)
    refine congrArg (V m c main_v14) (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega
  · intro j
    show V m c main_v15 (((cfg0.win 3).blk t).view.emb (ix2 (0 : Fin 1) j)) = V m c main_v15 (ix2 (0 : Fin 1) j)
    refine congrArg (V m c main_v15) (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega
  · intro j
    show V m c main_v16 (((cfg0.win 4).blk t).view.emb (ix2 (0 : Fin 1) j)) = V m c main_v16 (ix2 (0 : Fin 1) j)
    refine congrArg (V m c main_v16) (funext fun a => Fin.ext ?_)
    match a with
    | ⟨0, _⟩ => show win0_4.index t (0 : Fin 2) * 1 + 1 * 0 = 0; omega
    | ⟨1, _⟩ => show win0_4.index t (1 : Fin 2) * 128 + 1 * j.val = j.val; omega
  · show (y 1).val = win0_5.index t (1 : Fin 2) * 128 + 1 * (y 1).val
    omega

/-- The output array after the run is the layer of the operand arrays. -/
theorem final (c : Dev nD) :
    (dats m 0 c).arrAt 5 cfg0.N
      = layerOf (V m c main_v12) (V m c main_v13) (V m c main_v14) (V m c main_v15) (V m c main_v16) :=
  (dats m 0 c).arrAt_eq_of_cover 5 _ (fun t _ => flushed_eq m c t) covered

end Cert.KernelIdeal.Array

end
-- ==== Proof.HostOperands.lean ====
/-
  The operand arrays as the kernel's region finds them.

  Before its one call the kernel's program aggregates the features (a gather of the source rows, each scaled by its
  edge value, scatter-added into the destination rows), transposes the weights, and views the bias, scale and offset
  vectors as `[1, 128]` rows. The aggregation is, operation for operation, the reference's stage `val_main_v12` of the
  same four arguments, so it is named by that stage and never opened. The transposed weights read at `(k, j)` are the
  weights at `(j, k)`; a vector viewed as a row reads at `(0, j)` its entry `j`.
-/
import proofs.«169161_j43997644981190_1_alg».proof.Proof.Gen.KernelIdeal.Frame
import proofs.«169161_j43997644981190_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Operands

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The aggregated features are the reference's aggregation stage of the same four arguments. -/
theorem feats_eq (c : Dev nD) :
    (V m c main_v12 : S50000x128.Idx → EReal)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  dsimp only [V, hostOps0]
  after_results
  rfl

/-- The second operand is the weights transposed. -/
theorem weights_eq (c : Dev nD) :
    (V m c main_v13 : S128x128.Idx → EReal)
      = transpose S128x128 [1, 0] (m ((c : Thread nD τ).loc main_arg4)) transposes_S128x128_S128x128_1_0 := by
  dsimp only [V, hostOps0]
  after_results

theorem weights_apply (c : Dev nD) (k j : Fin 128) :
    (V m c main_v13 : S128x128.Idx → EReal) (ix2 k j) = (m ((c : Thread nD τ).loc main_arg4)) (ix2 j k) := by
  rw [weights_eq]
  exact transpose_ix2_apply _ transposes_S128x128_S128x128_1_0 k j

/-- The bias, scale and offset operands are the vectors viewed as one row. -/
theorem bias_eq (c : Dev nD) :
    (V m c main_v14 : S1x128.Idx → EReal) = shapeCast S1x128 (m ((c : Thread nD τ).loc main_arg5)) shapeCasts_S128_S1x128 := by
  dsimp only [V, hostOps0]
  after_results
  rfl

theorem scale_eq (c : Dev nD) :
    (V m c main_v15 : S1x128.Idx → EReal) = shapeCast S1x128 (m ((c : Thread nD τ).loc main_arg6)) shapeCasts_S128_S1x128 := by
  dsimp only [V, hostOps0]
  after_results
  rfl

theorem offset_eq (c : Dev nD) :
    (V m c main_v16 : S1x128.Idx → EReal) = shapeCast S1x128 (m ((c : Thread nD τ).loc main_arg7)) shapeCasts_S128_S1x128 := by
  dsimp only [V, hostOps0]
  after_results
  rfl

theorem bias_apply (c : Dev nD) (j : Fin 128) :
    (V m c main_v14 : S1x128.Idx → EReal) (ix2 (0 : Fin 1) j) = (m ((c : Thread nD τ).loc main_arg5)) (ix1 j) := by
  rw [bias_eq]
  exact shapeCast_a_1a_apply _ shapeCasts_S128_S1x128 0 j

theorem scale_apply (c : Dev nD) (j : Fin 128) :
    (V m c main_v15 : S1x128.Idx → EReal) (ix2 (0 : Fin 1) j) = (m ((c : Thread nD τ).loc main_arg6)) (ix1 j) := by
  rw [scale_eq]
  exact shapeCast_a_1a_apply _ shapeCasts_S128_S1x128 0 j

theorem offset_apply (c : Dev nD) (j : Fin 128) :
    (V m c main_v16 : S1x128.Idx → EReal) (ix2 (0 : Fin 1) j) = (m ((c : Thread nD τ).loc main_arg7)) (ix1 j) := by
  rw [offset_eq]
  exact shapeCast_a_1a_apply _ shapeCasts_S128_S1x128 0 j

end Cert.KernelIdeal.Operands

end
-- ==== Proof.KernelLayer.lean ====
/-
  The kernel's output array as a function of the arguments.

  After the run the output array is the layer of the operand arrays; the operand arrays are the aggregation stage of
  the first four arguments, the weights transposed, and the three parameter vectors viewed as rows. Read at the indices
  the layer uses, the transposed weights at `(k, j)` are the weights at `(j, k)` and each row at `(0, j)` is its vector at
  `j`: so the output array is `RowNorm.layer` of the aggregated features, the weights read transposed, and the bias, scale
  and offset vectors — the form in which the reference's result is stated too.
-/
import proofs.«169161_j43997644981190_1_alg».proof.Proof.KernelArray
import proofs.«169161_j43997644981190_1_alg».proof.Proof.HostOperands

noncomputable section

namespace Cert.KernelIdeal.Layer

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The layer of the arguments: the aggregation stage of the features, edge indices and edge values, then the row
    computation with the weights, bias, scale and offset. -/
def ofArgs (c : Dev nD) : S50000x128.Idx → EReal :=
  RowNorm.layer
    (Cert.ReferenceIdeal.Read.val_main_v12 (F := Ideal) (m ((c : Thread nD τ).loc main_arg0)) (m ((c : Thread nD τ).loc main_arg1)) (m ((c : Thread nD τ).loc main_arg2)) (m ((c : Thread nD τ).loc main_arg3)))
    (fun k j => (m ((c : Thread nD τ).loc main_arg4)) (ix2 j k)) (fun j => (m ((c : Thread nD τ).loc main_arg5)) (ix1 j)) (fun j => (m ((c : Thread nD τ).loc main_arg6)) (ix1 j)) (fun j => (m ((c : Thread nD τ).loc main_arg7)) (ix1 j))

/-- The output array after the run is the layer of the arguments. -/
theorem result_eq (c : Dev nD) : (dats m 0 c).arrAt 5 cfg0.N = ofArgs m c := by
  rw [Array.final]
  unfold Array.layerOf ofArgs
  have e0 : (V m c main_v12 : S50000x128.Idx → EReal)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := Operands.feats_eq m c
  have e1 : (fun k j : Fin 128 => (V m c main_v13 : S128x128.Idx → EReal) (ix2 k j)) = fun k j => (m ((c : Thread nD τ).loc main_arg4)) (ix2 j k) :=
    funext fun k => funext fun j => Operands.weights_apply m c k j
  have e2 : (fun j : Fin 128 => (V m c main_v14 : S1x128.Idx → EReal) (ix2 (0 : Fin 1) j)) = fun j => (m ((c : Thread nD τ).loc main_arg5)) (ix1 j) :=
    funext fun j => Operands.bias_apply m c j
  have e3 : (fun j : Fin 128 => (V m c main_v15 : S1x128.Idx → EReal) (ix2 (0 : Fin 1) j)) = fun j => (m ((c : Thread nD τ).loc main_arg6)) (ix1 j) :=
    funext fun j => Operands.scale_apply m c j
  have e4 : (fun j : Fin 128 => (V m c main_v16 : S1x128.Idx → EReal) (ix2 (0 : Fin 1) j)) = fun j => (m ((c : Thread nD τ).loc main_arg7)) (ix1 j) :=
    funext fun j => Operands.offset_apply m c j
  rw [e0, e1, e2, e3, e4]

end Cert.KernelIdeal.Layer

end
-- ==== Proof.ReferenceLayer.lean ====
/-
  The reference's result, read at an index: the same layer of the same operands.

  The reference aggregates the features exactly as the kernel's program does before its call (the stage `val_main_v12`,
  never opened here), multiplies by the transposed weights with one `dot_general` over all 50000 rows, adds the bias
  broadcast over the rows and clips at zero (`val_main_v18`); it then sums each row twice, each sum started from the
  zero word — which adds nothing —, kept as a column and broadcast back. Read at `(p, q)` every stage looks at row `p`
  of the activations or at entry `q` of a parameter vector, so the result is `RowNorm.layer` of the aggregated features,
  the weights read transposed, and the bias, scale and offset vectors. The host's quotient and reciprocal square root are
  the kernel's on the extended reals.
-/
import proofs.«169161_j43997644981190_1_alg».proof.Proof.Gen.ReferenceIdeal.Read
import proofs.«169161_j43997644981190_1_alg».proof.Proof.RowNorm
import Idealize.ShloMosaic.Lib.ValueIdx
import Idealize.ShloMosaic.PureOps.Ideal.Laws

noncomputable section

namespace Cert.ReferenceIdeal.Layer

open Cert.ReferenceIdeal Cert.ReferenceIdeal.Gen Cert.ReferenceIdeal.Read Idealize.ShloMosaic Idealize.ShloMosaic.ValueIdx

/-! ## The composed index maps, at coordinates -/

theorem lhs_row (p : Fin 50000) (q k : Fin 128) : lidx_main_v14 (ix2 p q) k = ix2 p k :=
  funext fun a => Fin.ext (by match a with | ⟨0, _⟩ => rfl | ⟨1, _⟩ => rfl)
theorem rhs_col (p : Fin 50000) (q k : Fin 128) : idx_main_v13 (ridx_main_v14 (ix2 p q) k) = ix2 q k :=
  funext fun a => Fin.ext (by match a with | ⟨0, _⟩ => rfl | ⟨1, _⟩ => rfl)
theorem bias_at (p : Fin 50000) (q : Fin 128) : idx_main_v15 (idx_main_v16 (ix2 p q)) = ix1 q :=
  funext fun a => Fin.ext (by match a with | ⟨0, _⟩ => rfl)
theorem scale_at (p : Fin 50000) (q : Fin 128) : idx_main_v34 (idx_main_v35 (ix2 p q)) = ix1 q :=
  funext fun a => Fin.ext (by match a with | ⟨0, _⟩ => rfl)
theorem offset_at (p : Fin 50000) (q : Fin 128) : idx_main_v40 (idx_main_v41 (ix2 p q)) = ix1 q :=
  funext fun a => Fin.ext (by match a with | ⟨0, _⟩ => rfl)
theorem col23 (p : Fin 50000) (q : Fin 128) : idx_main_v23 (ix2 p q) = ix2 p (0 : Fin 1) :=
  funext fun a => Fin.ext (by match a with | ⟨0, _⟩ => rfl | ⟨1, _⟩ => rfl)
theorem col32 (p : Fin 50000) (q : Fin 128) : idx_main_v32 (ix2 p q) = ix2 p (0 : Fin 1) :=
  funext fun a => Fin.ext (by match a with | ⟨0, _⟩ => rfl | ⟨1, _⟩ => rfl)
theorem col38 (p : Fin 50000) (q : Fin 128) : idx_main_v38 (ix2 p q) = ix2 p (0 : Fin 1) :=
  funext fun a => Fin.ext (by match a with | ⟨0, _⟩ => rfl | ⟨1, _⟩ => rfl)
theorem row19 (p : Fin 50000) (u : Fin 1) (k : Fin 128) : idx_main_v19 (idx_main_v20 (ix2 p u)) k = ix2 p k :=
  funext fun a => Fin.ext (by match a with | ⟨0, _⟩ => rfl | ⟨1, _⟩ => rfl)
theorem row26 (p : Fin 50000) (u : Fin 1) (k : Fin 128) : idx_main_v26 (idx_main_v27 (ix2 p u)) k = ix2 p k :=
  funext fun a => Fin.ext (by match a with | ⟨0, _⟩ => rfl | ⟨1, _⟩ => rfl)

variable (x0 : (⟨S50000x128, .f32⟩ : BufTy).Contents (Elt Ideal)) (x1 x2 : (⟨S1600000, .i32⟩ : BufTy).Contents (Elt Ideal))
  (x3 : (⟨S1600000, .f32⟩ : BufTy).Contents (Elt Ideal)) (x4 : (⟨S128x128, .f32⟩ : BufTy).Contents (Elt Ideal))
  (x5 x6 x7 : (⟨S128, .f32⟩ : BufTy).Contents (Elt Ideal))

/-! ## The activations -/

/-- Entry `(p, q)` of the activations: the clipped linear layer on row `p` of the aggregated features, the weights read
    transposed. -/
theorem acts_apply (p : Fin 50000) (q : Fin 128) :
    val_main_v18 (F := Ideal) x0 x1 x2 x3 x4 x5 (ix2 p q)
      = RowNorm.act (fun k => val_main_v12 (F := Ideal) x0 x1 x2 x3 (ix2 p k)) (fun k j => x4 (ix2 j k)) (fun j => x5 (ix1 j)) q := by
  rw [val_main_v18_apply, val_main_v17_apply, val_main_v14_apply, val_main_v16_apply, val_main_v15_apply,
    val_main_call0_v0_apply, val_main_call0_cst_apply, bias_at]
  unfold RowNorm.act
  show max ((∑ k : Fin 128, _) + x5 (ix1 q)) RowNorm.zeroW = _
  refine congrArg (fun s => max (s + x5 (ix1 q)) RowNorm.zeroW) (Finset.sum_congr rfl fun k _ => ?_)
  rw [val_main_v13_apply, lhs_row, rhs_col]

/-! ## The row statistics -/

/-- Entry `p` of the column of means. -/
theorem means_apply (p : Fin 50000) (u : Fin 1) :
    val_main_v22 (F := Ideal) x0 x1 x2 x3 x4 x5 (ix2 p u) = RowNorm.mean (fun j => val_main_v18 (F := Ideal) x0 x1 x2 x3 x4 x5 (ix2 p j)) := by
  rw [val_main_v22_apply, val_main_v20_apply, val_main_v19_apply, val_main_v21_apply, val_main_cst_2_apply, val_main_cst_1_apply]
  unfold RowNorm.mean
  show Ideal.div (Ideal.ofBits .f32 0x00000000#32 + ∑ k : Fin 128, _) RowNorm.widthW = _
  rw [Ideal.ofBits_zero_f32, zero_add]
  refine congrArg (Ideal.div · RowNorm.widthW) (Finset.sum_congr rfl fun k _ => ?_)
  rw [row19]

/-- The deviations, as the variance reads them. -/
theorem dev24_apply (p : Fin 50000) (q : Fin 128) :
    val_main_v24 (F := Ideal) x0 x1 x2 x3 x4 x5 (ix2 p q) = RowNorm.dev (fun j => val_main_v18 (F := Ideal) x0 x1 x2 x3 x4 x5 (ix2 p j)) q := by
  rw [val_main_v24_apply, val_main_v23_apply, col23, means_apply]
  rfl

/-- The deviations, as the output reads them (the reference computes them a second time). -/
theorem dev33_apply (p : Fin 50000) (q : Fin 128) :
    val_main_v33 (F := Ideal) x0 x1 x2 x3 x4 x5 (ix2 p q) = RowNorm.dev (fun j => val_main_v18 (F := Ideal) x0 x1 x2 x3 x4 x5 (ix2 p j)) q := by
  rw [val_main_v33_apply, val_main_v32_apply, col32, means_apply]
  rfl

/-- Entry `p` of the column of variances. -/
theorem vars_apply (p : Fin 50000) (u : Fin 1) :
    val_main_v31 (F := Ideal) x0 x1 x2 x3 x4 x5 (ix2 p u) = RowNorm.var (fun j => val_main_v18 (F := Ideal) x0 x1 x2 x3 x4 x5 (ix2 p j)) := by
  rw [val_main_v31_apply, val_main_v29_apply, val_main_v27_apply, val_main_v26_apply, val_main_v28_apply, val_main_cst_4_apply,
    val_main_cst_3_apply, val_main_v30_apply, val_main_cst_5_apply]
  unfold RowNorm.var
  show Ideal.div (Ideal.ofBits .f32 0x00000000#32 + ∑ k : Fin 128, _) RowNorm.widthW + RowNorm.epsW = _
  rw [Ideal.ofBits_zero_f32, zero_add]
  refine congrArg (fun s => Ideal.div s RowNorm.widthW + RowNorm.epsW) (Finset.sum_congr rfl fun k _ => ?_)
  rw [row26, val_main_v25_apply, dev24_apply]
  rfl

/-! ## The result -/

/-- Entry `(p, q)` of the reference's result. -/
theorem result_apply (p : Fin 50000) (q : Fin 128) :
    val_main_v42 (F := Ideal) x0 x1 x2 x3 x4 x5 x6 x7 (ix2 p q)
      = RowNorm.row (fun k => val_main_v12 (F := Ideal) x0 x1 x2 x3 (ix2 p k)) (fun k j => x4 (ix2 j k)) (fun j => x5 (ix1 j))
          (fun j => x6 (ix1 j)) (fun j => x7 (ix1 j)) q := by
  rw [val_main_v42_apply, val_main_v39_apply, val_main_v36_apply, dev33_apply, val_main_v35_apply, val_main_v34_apply, scale_at,
    val_main_v38_apply, col38, val_main_v37_apply, vars_apply, val_main_v41_apply, val_main_v40_apply, offset_at]
  have ha : (fun j => val_main_v18 (F := Ideal) x0 x1 x2 x3 x4 x5 (ix2 p j))
      = RowNorm.act (fun k => val_main_v12 (F := Ideal) x0 x1 x2 x3 (ix2 p k)) (fun k j => x4 (ix2 j k)) (fun j => x5 (ix1 j)) :=
    funext fun j => acts_apply x0 x1 x2 x3 x4 x5 p j
  rw [ha]
  rfl

/-- The reference's result is the layer of the aggregated features and the parameters. -/
theorem result_eq :
    val_main_v42 (F := Ideal) x0 x1 x2 x3 x4 x5 x6 x7
      = RowNorm.layer (val_main_v12 (F := Ideal) x0 x1 x2 x3) (fun k j => x4 (ix2 j k)) (fun j => x5 (ix1 j))
          (fun j => x6 (ix1 j)) (fun j => x7 (ix1 j)) := by
  funext i
  obtain ⟨p, q, rfl⟩ : ∃ (p : Fin 50000) (q : Fin 128), i = ix2 p q := ⟨i 0, i 1, eq_ix2 i⟩
  rw [result_apply, RowNorm.layer_apply]

end Cert.ReferenceIdeal.Layer

end
-- ==== Proof.lean ====
/-
  A linear layer with ReLU and a per-row normalisation, after a sparse aggregation: the Pallas kernel against jnp.

  Both programs first aggregate the features over the edges — gather the source rows, scale each by its edge value,
  scatter-add into the destination rows — with the same host operations in the same order; that stage is treated as one
  opaque function of the first four arguments. The kernel then runs over 25 blocks of 2000 rows: per block a matrix
  product with the transposed weights into a zero accumulator, the bias, a clip at zero, the row mean and the row
  variance as lane sums divided by 128, and `(a − mean) · scale · rsqrt(var + ε) + offset`. The reference does the same on
  all 50000 rows at once with a `dot_general` and host sums started from zero.

  On the extended reals these are one function, `RowNorm.layer`, entry by entry: the format changes are the identity, a
  product into a zero accumulator and a `dot_general` are the same sum over the 128 shared features, a lane sum and a host
  sum from zero are the same sum over the row, the two quotients and the two reciprocal square roots are the same
  operations on the same words, and the operations come in the same order and grouping on both sides. No algebraic law
  is used, so the finiteness of the inputs is never needed.

  The kernel side goes from the body's stored value at an entry (BlockPayload) through the blocks of the 25 points to the
  whole array (KernelArray) and to the arguments (HostOperands, KernelLayer); the reference side reads its run stage by
  stage (ReferenceLayer). The three frames are the programs' runs; the idealization rewrote nothing.
-/
import proofs.«169161_j43997644981190_1_alg».proof.Defs
import proofs.«169161_j43997644981190_1_alg».proof.Proof.Gen.Kernel
import proofs.«169161_j43997644981190_1_alg».proof.Proof.Gen.Kernel.Skeleton
import proofs.«169161_j43997644981190_1_alg».proof.Proof.Gen.Kernel.Launch
import proofs.«169161_j43997644981190_1_alg».proof.Proof.Gen.Kernel.Points
import proofs.«169161_j43997644981190_1_alg».proof.Proof.Gen.Kernel.Frame
import proofs.«169161_j43997644981190_1_alg».proof.Proof.Gen.KernelIdeal
import proofs.«169161_j43997644981190_1_alg».proof.Proof.Gen.KernelIdeal.Skeleton
import proofs.«169161_j43997644981190_1_alg».proof.Proof.Gen.KernelIdeal.Launch
import proofs.«169161_j43997644981190_1_alg».proof.Proof.Gen.KernelIdeal.Points
import proofs.«169161_j43997644981190_1_alg».proof.Proof.Gen.KernelIdeal.Frame
import proofs.«169161_j43997644981190_1_alg».proof.Proof.Gen.ReferenceIdeal
import proofs.«169161_j43997644981190_1_alg».proof.Proof.Gen.Pre_finite_inputs
import proofs.«169161_j43997644981190_1_alg».proof.Proof.Gen.KernelIdeal.Value
import proofs.«169161_j43997644981190_1_alg».proof.Proof.Gen.ReferenceIdeal.Run
import proofs.«169161_j43997644981190_1_alg».proof.Proof.Gen.ReferenceIdeal.Read
import proofs.«169161_j43997644981190_1_alg».proof.Proof.KernelLayer
import proofs.«169161_j43997644981190_1_alg».proof.Proof.ReferenceLayer
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments, both programs end with the layer of those arguments in their
    result arrays. -/
theorem algebraic : Cert.algebraic_KernelIdeal_ReferenceIdeal := by
  intro m ρ m' ρ' _ hagree
  refine ⟨fun c => Cert.KernelIdeal.Layer.ofArgs m c, ?_, ?_⟩
  · exact (θ_run Cert.KernelIdeal.defs _ _).mono
      (fun r h c => ⟨(h c).1.trans (Cert.KernelIdeal.Layer.result_eq m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, Cert.ReferenceIdeal.Layer.result_eq]
    obtain ⟨a0, a1, a2, a3, a4, a5, a6, a7⟩ := hagree c
    rw [a0, a1, a2, a3, a4, a5, a6, a7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
